-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.MatAssoc.lean ====
/-
  Reassociating a product of three matrices over the extended reals.

  For matrices whose entries are all real numbers (no infinite entry), row `r` of `(A · X)` against
  column `q` of `W` equals row `r` of `A` against column `q` of `(X · W)`:

      ∑ k, (∑ j, A (r, j) · X (j, k)) · W (k, q)  =  ∑ j, A (r, j) · (∑ k, X (j, k) · W (k, q)).

  On the extended reals this is NOT a law without the finiteness hypothesis: moving the factor
  `W (k, q)` inside the inner sum and `A (r, j)` outside it is distributivity, which fails at
  `+∞ + -∞`. With every entry real, both sides are the coercion of one real double sum
  `∑ j, ∑ k, A (r, j) · X (j, k) · W (k, q)`, and there the law is distributivity, the exchange of
  two finite sums and associativity of the product.
-/
import proofs.«162979_g20057497272921_cont_8to1_568_22_alg».proof.Proof.LibRowDot

noncomputable section

open scoped BigOperators

namespace Cert.MatAssoc

open Idealize.ShloMosaic Idealize.ShloMosaic.ValueIdx Cert.LibRowDot

/-- A finite sum of coerced reals is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The law over abstract finite index types, every entry a coerced real. -/
theorem assoc_coe {J K : Type*} [Fintype J] [Fintype K] (a : J → ℝ) (x : J → K → ℝ) (w : K → ℝ) :
    (∑ k, (∑ j, ((a j : ℝ) : EReal) * ((x j k : ℝ) : EReal)) * ((w k : ℝ) : EReal))
      = ∑ j, ((a j : ℝ) : EReal) * ∑ k, ((x j k : ℝ) : EReal) * ((w k : ℝ) : EReal) := by
  simp only [← EReal.coe_mul, sum_coe]
  refine congrArg _ ?_
  simp only [Finset.sum_mul, Finset.mul_sum]
  rw [Finset.sum_comm]
  exact Finset.sum_congr rfl fun j _ => Finset.sum_congr rfl fun k _ => mul_assoc _ _ _

/-- The product of two matrices, as a matrix: entry `(r, q)` is row `r` against column `q`. -/
def mm {n d h : ℕ} (a : Mat n d) (w : Mat d h) : Mat n h := fun j => rowDot a w (j 0) (j 1)

theorem mm_ix2 {n d h : ℕ} (a : Mat n d) (w : Mat d h) (r : Fin n) (q : Fin h) :
    mm a w (ix2 r q) = rowDot a w r q := rfl

/-- Every entry of the matrix is a real number. -/
def AllReal {n d : ℕ} (a : Mat n d) : Prop := ∀ i, ∃ v : ℝ, a i = (v : EReal)

/-- `(A · X) · W = A · (X · W)`, entry by entry, for matrices of real entries. -/
theorem rowDot_assoc {n d h p : ℕ} (A : Mat n d) (X : Mat d h) (W : Mat h p)
    (hA : AllReal A) (hX : AllReal X) (hW : AllReal W) (r : Fin n) (q : Fin p) :
    rowDot (mm A X) W r q = rowDot A (mm X W) r q := by
  choose a ha using hA
  choose x hx using hX
  choose w hw using hW
  unfold rowDot
  simp only [mm_ix2]
  unfold rowDot
  simp only [ha, hx, hw]
  exact assoc_coe (fun j => a (ix2 r j)) (fun j k => x (ix2 j k)) (fun k => w (ix2 k q))

end Cert.MatAssoc

end
-- ==== Proof.Layer.lean ====
/-
  The layer both programs compute, as one function of the argument arrays, index by index.

  With `A : [n, d]`, `X : [d, h]`, `W : [h, p]`, a bias row `b : [p]` and a floor `z`, entry `(r, q)` of the result
  is `max (∑ … + b q) z`, where the double sum is the product of the three matrices at `(r, q)`. The two programs
  bracket that product differently:

    * `layerL` multiplies `A · X` first and then by `W`  — `∑ k, (∑ j, A (r, j) · X (j, k)) · W (k, q)`;
    * `layerR` multiplies `X · W` first and then `A` by it — `∑ j, A (r, j) · (∑ k, X (j, k) · W (k, q))`.

  The bias and the floor enter both in the same way, so the two agree as soon as the two bracketings of the
  product do, which is the reassociation law for matrices of real entries.
-/
import proofs.«162979_g20057497272921_cont_8to1_568_22_alg».proof.Proof.MatAssoc

noncomputable section

open scoped BigOperators

namespace Cert.Layer

open Idealize.ShloMosaic Idealize.ShloMosaic.ValueIdx Cert.LibRowDot Cert.MatAssoc

/-- A row of `h` extended reals, as a function of its rank-1 index. -/
abbrev Row (h : ℕ) : Type := (⟨1, ![h]⟩ : Shape).Idx → EReal

/-- `max ((A · X) · W + b) z`: the product bracketed to the left. -/
def layerL {n d h p : ℕ} (A : Mat n d) (X : Mat d h) (W : Mat h p) (b : Row p) (z : EReal) : Mat n p :=
  fun i => max (rowDot (mm A X) W (i 0) (i 1) + b (ix1 (i 1))) z

/-- `max (A · (X · W) + b) z`: the product bracketed to the right. -/
def layerR {n d h p : ℕ} (A : Mat n d) (X : Mat d h) (W : Mat h p) (b : Row p) (z : EReal) : Mat n p :=
  fun i => max (rowDot A (mm X W) (i 0) (i 1) + b (ix1 (i 1))) z

theorem layerL_ix2 {n d h p : ℕ} (A : Mat n d) (X : Mat d h) (W : Mat h p) (b : Row p) (z : EReal)
    (r : Fin n) (q : Fin p) :
    layerL A X W b z (ix2 r q) = max (rowDot (mm A X) W r q + b (ix1 q)) z := rfl

/-- For matrices of real entries the two bracketings give one layer. -/
theorem layerL_eq_layerR {n d h p : ℕ} (A : Mat n d) (X : Mat d h) (W : Mat h p) (b : Row p) (z : EReal)
    (hA : AllReal A) (hX : AllReal X) (hW : AllReal W) : layerL A X W b z = layerR A X W b z := by
  funext i
  exact congrArg (fun v => max (v + b (ix1 (i 1))) z) (rowDot_assoc A X W hA hX hW (i 0) (i 1))

/-- A product that only sees the rows `s + 0, …, s + (n' - 1)` of `A`: row `u` of the block's product with `X`
    is row `s + u` of `A · X`. Stated through the block `A'` and the fact that it holds those rows. -/
theorem rowDot_mm_block {n n' d h p : ℕ} (A : Mat n d) (A' : Mat n' d) (X : Mat d h) (W : Mat h p)
    (r : Fin n) (u : Fin n') (hrows : ∀ j : Fin d, A' (ix2 u j) = A (ix2 r j)) (q : Fin p) :
    rowDot (mm A' X) W u q = rowDot (mm A X) W r q := by
  unfold rowDot
  refine Finset.sum_congr rfl fun k _ => ?_
  rw [mm_ix2, mm_ix2]
  unfold rowDot
  simp only [hrows]

end Cert.Layer

end
-- ==== Proof.Payload.lean ====
/-
  What the kernel's body stores at one grid point, read at an index.

  The body loads a block `a` of 400 rows of `A`, the whole of `X` and `W`, and the bias as a one-row matrix `β`;
  it multiplies `a · X` into a zero accumulator, the result by `W` into a zero accumulator, adds the bias row laid
  along every row, and takes the maximum with the zero word. At entry `(u, q)` of the block that is

      max (∑ k, (∑ j, a (u, j) · X (j, k)) · W (k, q) + β (0, q)) 0,

  the left-bracketed layer of the block.
-/
import proofs.«162979_g20057497272921_cont_8to1_568_22_alg».proof.Proof.Gen.KernelIdeal.Skeleton
import proofs.«162979_g20057497272921_cont_8to1_568_22_alg».proof.Proof.Layer
import Idealize.ShloMosaic.Lib.Pipeline.Value

noncomputable section

open scoped BigOperators

namespace Cert.KernelIdeal.Payload

open Cert.KernelIdeal Cert.KernelIdeal.Gen Idealize.ShloMosaic Idealize.ShloMosaic.ValueIdx
open Cert.LibRowDot Cert.MatAssoc Cert.Layer

/-- The first product of the body, as a matrix: the block of `A` times `X`. -/
theorem first_product (a : FVec Ideal S400x10000 .f32) (x : FVec Ideal S10000x128 .f32) :
    FloatOps.matmul (F := Ideal) dot_S400x10000_S10000x128_S400x128_1_0_0_1_n_n none a x
        (constant (F := Ideal) S400x128 .f32 0x00000000#32)
      = mm a x :=
  funext fun j => matmul_zero_apply dot_S400x10000_S10000x128_S400x128_1_0_0_1_n_n rfl rfl rfl rfl rfl rfl none a x j

/-- The bias row, cast to its own shape and laid along the 400 rows, read at `(u, q)`. -/
theorem bias_apply (β : FVec Ideal S1x128 .f32) (u : Fin 400) (q : Fin 128) :
    broadcastTo S400x128 (shapeCast S1x128 β shapeCasts_S1x128_S1x128) broadcasts_S1x128_S400x128 (ix2 u q)
      = β (ix2 0 q) := by
  rw [shapeCast_self]
  exact broadcastTo_apply β broadcasts_S1x128_S400x128 (ix2 u q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- THE PAYLOAD AT AN INDEX: the left-bracketed layer of the block, with the one-row bias read at row 0. -/
theorem pay_apply (a : FVec Ideal S400x10000 .f32) (x : FVec Ideal S10000x128 .f32) (w : FVec Ideal S128x128 .f32)
    (β : FVec Ideal S1x128 .f32) (u : Fin 400) (q : Fin 128) :
    k0_pay1 (F := Ideal) a x w β (ix2 u q)
      = max (rowDot (mm a x) w u q + β (ix2 0 q)) (Ideal.ofBits .f32 0x00000000#32) := by
  unfold k0_pay1
  simp only [matmul]
  rw [maximumf_apply, addf_apply, broadcast_apply, first_product, bias_apply]
  rw [matmul_zero_apply dot_S400x128_S128x128_S400x128_1_0_0_1_n_n rfl rfl rfl rfl rfl rfl none (mm a x) w (ix2 u q)]
  rfl

/-- ONE POINT'S STORE AGAINST THE WHOLE LAYER. If the loaded block `a` holds, in its row `u`, row `r` of `A`, the
    other two loads are `X` and `W` whole, and the one-row bias holds `b q` at column `q`, then entry `(u, q)` of
    what the body stores is entry `(r, q)` of the left-bracketed layer of the whole arrays. -/
theorem point_eq (A : Mat 10000 10000) (X : Mat 10000 128) (W : Mat 128 128) (b : Row 128)
    (a : FVec Ideal S400x10000 .f32) (x : FVec Ideal S10000x128 .f32) (w : FVec Ideal S128x128 .f32)
    (β : FVec Ideal S1x128 .f32) (r : Fin 10000) (u : Fin 400) (q : Fin 128)
    (ha : ∀ j : Fin 10000, a (ix2 u j) = A (ix2 r j)) (hx : x = X) (hw : w = W)
    (hβ : β (ix2 0 q) = b (ix1 q)) :
    k0_pay1 (F := Ideal) a x w β (ix2 u q) = layerL A X W b (Ideal.ofBits .f32 0x00000000#32) (ix2 r q) := by
  subst hx hw
  rw [pay_apply, layerL_ix2, hβ, rowDot_mm_block A a x w r u ha q]

end Cert.KernelIdeal.Payload

end
-- ==== Proof.KernelValue.lean ====
/-
  The kernel's result array, as one function of the argument arrays.

  The grid has 25 points; point `t` stages rows `400·t … 400·t + 399` of `A`, the whole of `X`, `W` and the
  one-row bias (the host's reshape of `b`), and writes back rows `400·t … 400·t + 399` of the result. What it
  writes at entry `(u, q)` of its block is entry `(400·t + u, q)` of the left-bracketed layer of the whole
  arrays: the block of `A` holds exactly the rows the layer's entry depends on. The 25 blocks tile the
  10000 rows, so the array ends holding that layer.
-/
import proofs.«162979_g20057497272921_cont_8to1_568_22_alg».proof.Proof.Gen.KernelIdeal.Value
import proofs.«162979_g20057497272921_cont_8to1_568_22_alg».proof.Proof.Payload
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.LibRowDot Cert.MatAssoc Cert.Layer Cert.KernelIdeal.Payload

variable (m : (ℓ : Loc nD τ sig) → Buf (Elt Ideal) ℓ) (ρ : Dev nD → PrngReg)

/-- The four argument arrays on core `c`, at their literal types. -/
abbrev argA (c : Dev nD) : Mat 10000 10000 := m ((c : Thread nD τ).loc main_arg0)
abbrev argX (c : Dev nD) : Mat 10000 128 := m ((c : Thread nD τ).loc main_arg1)
abbrev argW (c : Dev nD) : Mat 128 128 := m ((c : Thread nD τ).loc main_arg2)
abbrev argB (c : Dev nD) : Row 128 := m ((c : Thread nD τ).loc main_arg3)

/-- What the result array ends holding: `max ((A · X) · W + b) 0`. -/
def result (c : Dev nD) : S10000x128.Idx → EReal :=
  layerL (argA m c) (argX m c) (argW m c) (argB m c) (Ideal.ofBits .f32 0x00000000#32)

theorem hz : (![0, 0] : Fin 2 → Nat) = fun _ => 0 := funext fun a => by fin_cases a <;> rfl

/-- The bias window's array when the region is entered: the host's reshape of `b` to one row. -/
theorem V_bias (c : Dev nD) :
    (V m c main_v0 : S1x128.Idx → EReal) = shapeCast S1x128 (argB m c) shapeCasts_S128_S1x128 := by
  dsimp only [Gen.V, Gen.hostOps0]
  after_results
  rfl

/-- That one row at column `q` is `b q`. -/
theorem V_bias_apply (c : Dev nD) (q : Fin 128) : (V m c main_v0 : S1x128.Idx → EReal) (ix2 0 q) = argB m c (ix1 q) := by
  rw [V_bias]
  exact (shapeCast_addUnit_apply ![128] (argB m c) shapeCasts_S128_S1x128 (ix2 0 q)).trans
    (congrArg (argB m c) (funext fun a => match a with | ⟨0, _⟩ => rfl))

/-- The printed index maps over the 25 points: the block of `A` moves with the output block down the rows; every
    other window stays at block 0; the output's block row is the point's number. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the layer of the whole argument arrays. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S400x10000) hz, View.ld_unit_zero (S := S10000x128) hz,
    View.ld_unit_zero (S := S128x128) hz, View.ld_unit_zero (S := S1x128) hz]
  obtain ⟨e00, e01, e10, e11, e20, e21, e30, e31, e40, e41⟩ := idx_facts t
  have ht : t.val < 25 := lt_of_lt_of_eq t.isLt N_0
  funext j
  obtain ⟨u, q, rfl⟩ : ∃ (u : Fin 400) (q : Fin 128), j = ix2 u q := ⟨j 0, j 1, eq_ix2 j⟩
  -- the row of the whole arrays this entry belongs to
  have hr : win0_4.index t (0 : Fin 2) * 400 + u.val < 10000 := by have := u.isLt; omega
  have hemb : ((cfg0.win 4).blk t).view.emb (ix2 u q) = ix2 (⟨win0_4.index t (0 : Fin 2) * 400 + u.val, hr⟩ : Fin 10000) q := by
    funext a; apply Fin.ext
    match a with
    | ⟨0, _⟩ => show win0_4.index t (0 : Fin 2) * 400 + 1 * u.val = win0_4.index t (0 : Fin 2) * 400 + u.val; omega
    | ⟨1, _⟩ => show win0_4.index t (1 : Fin 2) * 128 + 1 * q.val = q.val; omega
  show k0_pay1 (F := Ideal) (iblk m c 0 t) (iblk m c 1 t) (iblk m c 2 t) (iblk m c 3 t) (ix2 u q)
    = result m c (((cfg0.win 4).blk t).view.emb (ix2 u q))
  rw [hemb]
  refine point_eq (argA m c) (argX m c) (argW m c) (argB m c) (iblk m c 0 t) (iblk m c 1 t) (iblk m c 2 t)
    (iblk m c 3 t) ⟨win0_4.index t (0 : Fin 2) * 400 + u.val, hr⟩ u q ?_ ?_ ?_ ?_
  · intro j'
    show V m c main_arg0 (((cfg0.win 0).blk t).view.emb (ix2 u j')) = m ((c : Thread nD τ).loc main_arg0) _
    rw [V_main_arg0]
    refine congrArg (m ((c : Thread nD τ).loc main_arg0)) ?_
    funext a; apply Fin.ext
    match a with
    | ⟨0, _⟩ => show win0_0.index t (0 : Fin 2) * 400 + 1 * u.val = win0_4.index t (0 : Fin 2) * 400 + u.val; omega
    | ⟨1, _⟩ => show win0_0.index t (1 : Fin 2) * 10000 + 1 * j'.val = j'.val; omega
  · funext y
    show V m c main_arg1 (((cfg0.win 1).blk t).view.emb y) = m ((c : Thread nD τ).loc main_arg1) y
    rw [V_main_arg1]
    refine congrArg (m ((c : Thread nD τ).loc main_arg1)) ?_
    funext a; apply Fin.ext
    match a with
    | ⟨0, _⟩ => show win0_1.index t (0 : Fin 2) * 10000 + 1 * (y 0).val = (y 0).val; omega
    | ⟨1, _⟩ => show win0_1.index t (1 : Fin 2) * 128 + 1 * (y 1).val = (y 1).val; omega
  · funext y
    show V m c main_arg2 (((cfg0.win 2).blk t).view.emb y) = m ((c : Thread nD τ).loc main_arg2) y
    rw [V_main_arg2]
    refine congrArg (m ((c : Thread nD τ).loc main_arg2)) ?_
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · show V m c main_v0 (((cfg0.win 3).blk t).view.emb (ix2 0 q)) = _
    have he : ((cfg0.win 3).blk t).view.emb (ix2 (0 : Fin 1) q) = ix2 (0 : Fin 1) q := by
      funext a; apply Fin.ext
      match a with
      | ⟨0, _⟩ => show win0_3.index t (0 : Fin 2) * 1 + 1 * 0 = 0; omega
      | ⟨1, _⟩ => show win0_3.index t (1 : Fin 2) * 128 + 1 * q.val = q.val; omega
    rw [he]
    exact V_bias_apply m c q

/-- An index of the array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Every block row `0 … 24` is some point's. -/
theorem idx_onto : ∀ p : Fin 25, ∃ t : Fin cfg0.N, win0_4.index t = ![p.val, 0] :=
  (by decide +kernel : ∀ p : Fin 25, ∃ t : Fin grid0.N, win0_4.index t = ![p.val, 0])

/-- THE BLOCKS TILE THE ARRAY: row `r` lies in the block of the point whose block row is `r / 400`. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE ARRAY after the run is the layer. -/
theorem final (c : Dev nD) : (dats m 0 c).arrAt 4 cfg0.N = result m c :=
  (dats m 0 c).arrAt_eq_of_cover 4 (result m c) (fun t _ => flushed_eq m c t) cover

/-- The kernel's run: the result array ends at the layer of the argument arrays, which end unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KValue

end
-- ==== Proof.RefValue.lean ====
/-
  The reference's result, read at an index, is the right-bracketed layer.

  The reference multiplies `X · W` first (a `dot_general` contracting `X`'s columns with `W`'s rows), then `A` by
  that product, adds the bias broadcast along the rows (through a one-row matrix), and takes the maximum with a
  broadcast zero word. At entry `(r, q)`:

      max (∑ j, A (r, j) · (∑ k, X (j, k) · W (k, q)) + b q) 0.
-/
import proofs.«162979_g20057497272921_cont_8to1_568_22_alg».proof.Proof.Gen.ReferenceIdeal.Read
import proofs.«162979_g20057497272921_cont_8to1_568_22_alg».proof.Proof.Layer

noncomputable section

open scoped BigOperators

namespace Cert.ReferenceIdeal.RefValue

open Cert.ReferenceIdeal Cert.ReferenceIdeal.Read Idealize.ShloMosaic Idealize.ShloMosaic.ValueIdx
open Cert.LibRowDot Cert.MatAssoc Cert.Layer

/-- The inner product `X · W`, as a matrix. -/
theorem inner_product (X : FVec Ideal S10000x128 .f32) (W : FVec Ideal S128x128 .f32) :
    val_main_v0 (F := Ideal) X W = mm X W :=
  funext fun j => by
    unfold val_main_v0
    simp only [Host.dotGeneral]
    exact dotGeneral_apply dot_S10000x128_S128x128_S10000x128_1_0_0_1_n_n rfl rfl rfl rfl rfl rfl none _ X W j

/-- The outer product `A · (X · W)` at an index: row of `A` against column of `X · W`. -/
theorem outer_product (A : FVec Ideal S10000x10000 .f32) (X : FVec Ideal S10000x128 .f32)
    (W : FVec Ideal S128x128 .f32) (i : S10000x128.Idx) :
    val_main_v1 (F := Ideal) A X W i = rowDot A (mm X W) (i 0) (i 1) := by
  unfold val_main_v1
  rw [inner_product]
  simp only [Host.dotGeneral]
  exact dotGeneral_apply dot_S10000x10000_S10000x128_S10000x128_1_0_0_1_n_n rfl rfl rfl rfl rfl rfl none _ A (mm X W) i

/-- The bias, broadcast to one row and then along the 10000 rows, read at `i`: entry `i 1` of `b`. -/
theorem bias_apply (b : FVec Ideal S128 .f32) (i : S10000x128.Idx) :
    val_main_v3 (F := Ideal) b i = b (ix1 (i 1)) := by
  rw [val_main_v3_apply, val_main_v2_apply]
  exact congrArg b (funext fun a => match a with | ⟨0, _⟩ => rfl)

/-- THE REFERENCE'S RESULT IS THE RIGHT-BRACKETED LAYER. -/
theorem ref_eq_layerR (A : FVec Ideal S10000x10000 .f32) (X : FVec Ideal S10000x128 .f32)
    (W : FVec Ideal S128x128 .f32) (b : FVec Ideal S128 .f32) :
    val_main_v6 (F := Ideal) A X W b = layerR A X W b (Ideal.ofBits .f32 0x00000000#32) := by
  funext i
  rw [val_main_v6_apply, val_main_v4_apply, val_main_v5_apply, val_main_cst_apply, outer_product, bias_apply]
  rfl

end Cert.ReferenceIdeal.RefValue

end
-- ==== Proof.Finite.lean ====
/-
  From the precondition to real entries.

  The precondition says of each float argument `v` that `jnp.all (|v| < +∞)` holds: a reduction by `and`, over
  every axis, of the comparison of `max v (-v)` with the word of `+∞`, from the constant 1; the four results are
  conjoined. On the extended reals `max x (-x) < ⊤` holds exactly when `x` is neither infinity, that is, when
  `x` is (the coercion of) a real number. So under the precondition every entry of every float argument is real.
-/
import proofs.«162979_g20057497272921_cont_8to1_568_22_alg».proof.Proof.Gen.Pre_finite_inputs
import proofs.«162979_g20057497272921_cont_8to1_568_22_alg».proof.Proof.Layer
import Idealize.ShloMosaic.Lib.ReduceAll
import Idealize.ShloMosaic.Lib.ValueIdx
import Idealize.ShloMosaic.PureOps.Ideal

noncomputable section

namespace Cert.Finite

open Idealize.ShloMosaic Cert.Pre_finite_inputs Cert.Pre_finite_inputs.Gen

/-- The scalar shape has one index. -/
instance : Subsingleton S_.Idx := ⟨fun a b => funext fun d => d.elim0⟩

/-- ONE ENTRY: `|x| < +∞` on the extended reals makes `x` a real number. -/
theorem real_of_abs_lt_inf (x : EReal)
    (h : Ideal.cmp .olt (max x (-x)) (Ideal.ofBits .f32 0x7F800000#32) = 1#1) : ∃ v : ℝ, x = (v : EReal) := by
  have htop : Ideal.ofBits .f32 0x7F800000#32 = ⊤ := by simp [Ideal.ofBits, Ideal.ieee]
  rw [htop] at h
  unfold Ideal.cmp at h
  induction x using EReal.rec with
  | bot => simp at h
  | coe v => exact ⟨v, rfl⟩
  | top => simp at h

/-- ONE ARGUMENT: if the reduction by `and` of `|a| < +∞` over every axis is 1, every entry of `a` is real. -/
theorem allReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf a) (broadcastInDim s ![] hb (constant (F := Ideal) S_ .f32 0x7F800000#32)))
          init hr hu ValueIdx.ix0 = 1#1)
    (i : s.Idx) : ∃ v : ℝ, a i = (v : EReal) := by
  have hi := Host.reduce_andi_all _ init hr hu ValueIdx.ix0 e i
  exact real_of_abs_lt_inf (a i) hi

/-- THE PRECONDITION, DECODED: every entry of `A`, `X` and `W` is a real number. -/
theorem allReal_of_pre (A : FVec Ideal S10000x10000 .f32) (X : FVec Ideal S10000x128 .f32)
    (W : FVec Ideal S128x128 .f32) (b : FVec Ideal S128 .f32)
    (h : fn (F := Ideal) A X W b = fun _ => 1#1) :
    (∀ i, ∃ v : ℝ, A i = (v : EReal)) ∧ (∀ i, ∃ v : ℝ, X i = (v : EReal)) ∧ (∀ i, ∃ v : ℝ, W i = (v : EReal)) := by
  have h0 := congrFun h ValueIdx.ix0
  dsimp only [fn, fn_part1] at h0
  obtain ⟨h012, _⟩ := IntOp.andi_eq_one.1 h0
  obtain ⟨h01, h2⟩ := IntOp.andi_eq_one.1 h012
  obtain ⟨hA, hX⟩ := IntOp.andi_eq_one.1 h01
  exact ⟨allReal_of_all A _ _ _ _ hA, allReal_of_all X _ _ _ _ hX, allReal_of_all W _ _ _ _ h2⟩

end Cert.Finite

end
-- ==== Proof.lean ====
/- The certificate of one graph-propagation layer, `out = max (A · (X · W) + b) 0`, computed by a kernel that
   brackets the product the other way round.

   The kernel walks 25 blocks of 400 rows of `A`; at each it multiplies the block by `X` (a [400, 10000] × [10000, 128]
   product into a zero accumulator), the result by `W` ([400, 128] × [128, 128]), adds the bias row and takes the
   maximum with zero: `max ((A · X) · W + b) 0`, row block by row block. The reference multiplies `X · W` first and
   then `A` by it. On the extended reals the two bracketings differ in general (distributivity fails at `+∞ + -∞`),
   but the precondition makes every entry of `A`, `X` and `W` a real number, and for real matrices
   `(A · X) · W = A · (X · W)` entry by entry: both are the double sum `∑ j k, A (r, j) · X (j, k) · W (k, q)`.

   The three frames are the generated ones (the reference's is its run with the result dropped); no operation was
   rewritten by the idealization, so `preserves` is trivial; `algebraic` sets the kernel's run (each block the layer
   of the whole arrays, the blocks tiling the rows) beside the reference's run read at an index. -/
import proofs.«162979_g20057497272921_cont_8to1_568_22_alg».proof.Defs
import proofs.«162979_g20057497272921_cont_8to1_568_22_alg».proof.Proof.Gen.Kernel
import proofs.«162979_g20057497272921_cont_8to1_568_22_alg».proof.Proof.Gen.Kernel.Skeleton
import proofs.«162979_g20057497272921_cont_8to1_568_22_alg».proof.Proof.Gen.Kernel.Launch
import proofs.«162979_g20057497272921_cont_8to1_568_22_alg».proof.Proof.Gen.Kernel.Points
import proofs.«162979_g20057497272921_cont_8to1_568_22_alg».proof.Proof.Gen.Kernel.Frame
import proofs.«162979_g20057497272921_cont_8to1_568_22_alg».proof.Proof.Gen.KernelIdeal
import proofs.«162979_g20057497272921_cont_8to1_568_22_alg».proof.Proof.Gen.KernelIdeal.Skeleton
import proofs.«162979_g20057497272921_cont_8to1_568_22_alg».proof.Proof.Gen.KernelIdeal.Launch
import proofs.«162979_g20057497272921_cont_8to1_568_22_alg».proof.Proof.Gen.KernelIdeal.Points
import proofs.«162979_g20057497272921_cont_8to1_568_22_alg».proof.Proof.Gen.KernelIdeal.Frame
import proofs.«162979_g20057497272921_cont_8to1_568_22_alg».proof.Proof.Gen.ReferenceIdeal
import proofs.«162979_g20057497272921_cont_8to1_568_22_alg».proof.Proof.Gen.Pre_finite_inputs
import proofs.«162979_g20057497272921_cont_8to1_568_22_alg».proof.Proof.Gen.KernelIdeal.Value
import proofs.«162979_g20057497272921_cont_8to1_568_22_alg».proof.Proof.Gen.ReferenceIdeal.Run
import proofs.«162979_g20057497272921_cont_8to1_568_22_alg».proof.Proof.Gen.ReferenceIdeal.Read
import proofs.«162979_g20057497272921_cont_8to1_568_22_alg».proof.Proof.KernelValue
import proofs.«162979_g20057497272921_cont_8to1_568_22_alg».proof.Proof.RefValue
import proofs.«162979_g20057497272921_cont_8to1_568_22_alg».proof.Proof.Finite
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of arguments that agree: the kernel with the left-bracketed product, the
    reference with the right-bracketed one, equal because the precondition makes every entry real. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq_layerR,
    (hagree c).1, (hagree c).2.1, (hagree c).2.2.1, (hagree c).2.2.2]
  obtain ⟨hA, hX, hW⟩ := Cert.Finite.allReal_of_pre _ _ _ _ (hpre c)
  exact (Cert.Layer.layerL_eq_layerR _ _ _ _ _ hA hX hW).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
